-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x100x4096 : Shape := ⟨3, ![64, 100, 4096]⟩
abbrev S1024x4096 : Shape := ⟨2, ![1024, 4096]⟩
abbrev S1024x1024 : Shape := ⟨2, ![1024, 1024]⟩
abbrev S1024 : Shape := ⟨1, ![1024]⟩
abbrev S_ : Shape := ⟨0, ![]⟩

class Facts : Prop where
  bcast_S_S64x100x4096 : S_.BroadcastsInDim S64x100x4096 (![] : Fin 0 → Fin S64x100x4096.rank)
  reducesTo_S64x100x4096_S_d0_1_2 : S64x100x4096.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S64x100x4096 .f32) (main_arg1 : FVec F S1024x4096 .f32) (main_arg2 : FVec F S1024x1024 .f32) (main_arg3 : FVec F S1024x1024 .f32) (main_arg4 : FVec F S1024x1024 .f32) (main_arg5 : FVec F S1024x1024 .f32) (main_arg6 : FVec F S1024 .f32) : IVec S_ 1 :=
  let main_v0 : FVec F S64x100x4096 .f32 := Host.absf main_arg0
  let main_cst : FVec F S_ .f32 := constant S_ .f32 0x7F800000#32
  let main_v1 : FVec F S64x100x4096 .f32 := broadcastInDim S64x100x4096 ![] bcast_S_S64x100x4096 main_cst
  let main_v2 : IVec S64x100x4096 1 := cmpf .olt main_v0 main_v1
  let main_c : IVec S_ 1 := constantI S_ 1 1#1
  let main_v3 : IVec S_ 1 := (fun x v => Host.reduce IntOp.andi x v reducesTo_S64x100x4096_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S64x100x4096 : Shape := ⟨3, ![64, 100, 4096]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩
abbrev S64x100x1024 : Shape := ⟨3, ![64, 100, 1024]⟩
abbrev S1x100x4096 : Shape := ⟨3, ![1, 100, 4096]⟩
abbrev S1x100x1024 : Shape := ⟨3, ![1, 100, 1024]⟩
abbrev S100x4096 : Shape := ⟨2, ![100, 4096]⟩
abbrev S100x1024 : Shape := ⟨2, ![100, 1024]⟩
abbrev S100x100 : Shape := ⟨2, ![100, 100]⟩
abbrev S100 : Shape := ⟨1, ![100]⟩
abbrev S100x1 : Shape := ⟨2, ![100, 1]⟩

abbrev nBuf : Space → Nat
  | .hbm => 14
  | .vmem => 10
  | .smem => 0
  | _ => 0

abbrev bufTy : (tb : Table) → Fin (tcTables nBuf tb) → BufTy
  | .hbm, ⟨0, _⟩ => ⟨S64x100x4096, .f32⟩
  | .hbm, ⟨1, _⟩ => ⟨S1024x4096, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x4096, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S64x100x1024, .f32⟩
  | .local _ .vmem, ⟨0, _⟩ => ⟨S1x100x4096, .f32⟩
  | .local _ .vmem, ⟨1, _⟩ => ⟨S1x100x4096, .f32⟩
  | .local _ .vmem, ⟨2, _⟩ => ⟨S1024x4096, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x100x1024, .f32⟩
  | .local _ .vmem, ⟨9, _⟩ => ⟨S1x100x1024, .f32⟩
  | _, _ => ⟨S64x100x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x100x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x100x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S1024_S1x1024 : S1024.ShapeCasts S1x1024
  inb_S1x100x4096_S1x100x4096_0_0_0 : ∀ a, (![0, 0, 0] : Fin 3 → Nat) a + S1x100x4096.size a ≤ S1x100x4096.size a
  h_S1x100x4096 : 0 < S1x100x4096.numel
  shapeCasts_S1x100x4096_S100x4096 : S1x100x4096.ShapeCasts S100x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S100x100_S100 : S100x100.Reduces [1] S100
  shapeCasts_S100_S100x1 : S100.ShapeCasts S100x1
  broadcasts_S100x1_S100x100 : S100x1.Broadcasts S100x100
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S100x1024 : S1x1024.Broadcasts S100x1024
  inb_S1x100x1024_S1x100x1024_0_0_0 : ∀ a, (![0, 0, 0] : Fin 3 → Nat) a + S1x100x1024.size a ≤ S1x100x1024.size a
  h_S1x100x1024 : 0 < S1x100x1024.numel
  shapeCasts_S1x100x1024_S100x1024 : S1x100x1024.ShapeCasts S100x1024
  shapeCasts_S100x1024_S1x100x1024 : S100x1024.ShapeCasts S1x100x1024
  dot_S100x4096_S1024x4096_S100x1024_1_1_0_0_n_n_wf : DotDims.WF S100x4096 S1024x4096 S100x1024 [1] [1] [0] [0] [] []
  dot_S100x1024_S1024x1024_S100x1024_1_1_0_0_n_n_wf : DotDims.WF S100x1024 S1024x1024 S100x1024 [1] [1] [0] [0] [] []
  dot_S100x1024_S100x1024_S100x100_1_1_0_0_n_n_wf : DotDims.WF S100x1024 S100x1024 S100x100 [1] [1] [0] [0] [] []
  dot_S100x100_S100x1024_S100x1024_1_0_0_1_n_n_wf : DotDims.WF S100x100 S100x1024 S100x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x100x4096.size a ≤ S64x100x4096.size a
  hwx0_0 : ∀ i : grid0.Coords, EltTy.bits .f32 = 32 ∨ (Rect.block (s := S64x100x4096) S1x100x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x100x1024.size a ≤ S64x100x1024.size a
  hwx0_7 : ∀ i : grid0.Coords, EltTy.bits .f32 = 32 ∨ (Rect.block (s := S64x100x1024) S1x100x1024.size (cc0_transform_7 i) (hinb0_7 i)).WholeWords (EltTy.packing .f32)

variable [Facts₀]

def dot_S100x4096_S1024x4096_S100x1024_1_1_0_0_n_n : DotDims S100x4096 S1024x4096 S100x1024 where
  lhsContracting := [1]
  rhsContracting := [1]
  lhsNonContracting := [0]
  rhsNonContracting := [0]
  lhsBatch := []
  rhsBatch := []
  wf := dot_S100x4096_S1024x4096_S100x1024_1_1_0_0_n_n_wf
def dot_S100x1024_S1024x1024_S100x1024_1_1_0_0_n_n : DotDims S100x1024 S1024x1024 S100x1024 where
  lhsContracting := [1]
  rhsContracting := [1]
  lhsNonContracting := [0]
  rhsNonContracting := [0]
  lhsBatch := []
  rhsBatch := []
  wf := dot_S100x1024_S1024x1024_S100x1024_1_1_0_0_n_n_wf
def dot_S100x1024_S100x1024_S100x100_1_1_0_0_n_n : DotDims S100x1024 S100x1024 S100x100 where
  lhsContracting := [1]
  rhsContracting := [1]
  lhsNonContracting := [0]
  rhsNonContracting := [0]
  lhsBatch := []
  rhsBatch := []
  wf := dot_S100x1024_S100x1024_S100x100_1_1_0_0_n_n_wf
def dot_S100x100_S100x1024_S100x1024_1_0_0_1_n_n : DotDims S100x100 S100x1024 S100x1024 where
  lhsContracting := [1]
  rhsContracting := [0]
  lhsNonContracting := [0]
  rhsNonContracting := [1]
  lhsBatch := []
  rhsBatch := []
  wf := dot_S100x100_S100x1024_S100x1024_1_0_0_1_n_n_wf

abbrev win0_0 : Pipeline.Window sig grid0 :=
  Pipeline.Window.ofSpec (Memref.whole main_arg0) S1x100x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x100x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x100x4096 : Shape := ⟨3, ![64, 100, 4096]⟩
abbrev S1024x4096 : Shape := ⟨2, ![1024, 4096]⟩
abbrev S1024x1024 : Shape := ⟨2, ![1024, 1024]⟩
abbrev S1024 : Shape := ⟨1, ![1024]⟩
abbrev S64x100x1024 : Shape := ⟨3, ![64, 100, 1024]⟩
abbrev S64x100x100 : Shape := ⟨3, ![64, 100, 100]⟩
abbrev S_ : Shape := ⟨0, ![]⟩
abbrev S64x100 : Shape := ⟨2, ![64, 100]⟩
abbrev S64x100x1 : Shape := ⟨3, ![64, 100, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S64x100x4096, .f32⟩
  | .hbm, ⟨1, _⟩ => ⟨S1024x4096, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S64x100x1024, .f32⟩
  | .hbm, ⟨8, _⟩ => ⟨S64x100x1024, .f32⟩
  | .hbm, ⟨9, _⟩ => ⟨S64x100x1024, .f32⟩
  | .hbm, ⟨10, _⟩ => ⟨S64x100x100, .f32⟩
  | .hbm, ⟨11, _⟩ => ⟨S_, .f32⟩
  | .hbm, ⟨12, _⟩ => ⟨S64x100, .f32⟩
  | .hbm, ⟨13, _⟩ => ⟨S_, .f32⟩
  | .hbm, ⟨14, _⟩ => ⟨S64x100, .f32⟩
  | .hbm, ⟨15, _⟩ => ⟨S64x100, .f32⟩
  | .hbm, ⟨16, _⟩ => ⟨S64x100x1, .f32⟩
  | .hbm, ⟨17, _⟩ => ⟨S64x100x100, .f32⟩
  | .hbm, ⟨18, _⟩ => ⟨S64x100x100, .f32⟩
  | .hbm, ⟨19, _⟩ => ⟨S64x100x100, .f32⟩
  | .hbm, ⟨20, _⟩ => ⟨S_, .f32⟩
  | .hbm, ⟨21, _⟩ => ⟨S64x100, .f32⟩
  | .hbm, ⟨22, _⟩ => ⟨S64x100x1, .f32⟩
  | .hbm, ⟨23, _⟩ => ⟨S64x100x100, .f32⟩
  | .hbm, ⟨24, _⟩ => ⟨S64x100x100, .f32⟩
  | .hbm, ⟨25, _⟩ => ⟨S64x100x1024, .f32⟩
  | .hbm, ⟨26, _⟩ => ⟨S64x100x1024, .f32⟩
  | .hbm, ⟨27, _⟩ => ⟨S64x100x1024, .f32⟩
  | .hbm, ⟨28, _⟩ => ⟨S1x1x1024, .f32⟩
  | .hbm, ⟨29, _⟩ => ⟨S64x100x1024, .f32⟩
  | .hbm, ⟨30, _⟩ => ⟨S64x100x1024, .f32⟩
  | .hbm, ⟨31, _⟩ => ⟨S64x100x1024, .f32⟩
  | _, _ => ⟨S64x100x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S64x100x100_S64x100_d2 : S64x100x100.ReducesTo [2] S64x100
  h_S_ : 0 < S_.numel
  bcast_S_S64x100 : S_.BroadcastsInDim S64x100 (![] : Fin 0 → Fin S64x100.rank)
  bcast_S64x100_S64x100x1_0_1 : S64x100.BroadcastsInDim S64x100x1 (![0, 1] : Fin 2 → Fin S64x100x1.rank)
  bcast_S64x100x1_S64x100x100_0_1_2 : S64x100x1.BroadcastsInDim S64x100x100 (![0, 1, 2] : Fin 3 → Fin S64x100x100.rank)
  bcast_S1024_S1x1x1024_2 : S1024.BroadcastsInDim S1x1x1024 (![2] : Fin 1 → Fin S1x1x1024.rank)
  bcast_S1x1x1024_S64x100x1024_0_1_2 : S1x1x1024.BroadcastsInDim S64x100x1024 (![0, 1, 2] : Fin 3 → Fin S64x100x1024.rank)
  dot_S64x100x4096_S1024x4096_S64x100x1024_2_1_01_0_n_n_wf : DotDims.WF S64x100x4096 S1024x4096 S64x100x1024 [2] [1] [0, 1] [0] [] []
  dot_S64x100x1024_S1024x1024_S64x100x1024_2_1_01_0_n_n_wf : DotDims.WF S64x100x1024 S1024x1024 S64x100x1024 [2] [1] [0, 1] [0] [] []
  dot_S64x100x1024_S64x100x1024_S64x100x100_2_2_1_1_0_0_wf : DotDims.WF S64x100x1024 S64x100x1024 S64x100x100 [2] [2] [1] [1] [0] [0]
  dot_S64x100x100_S64x100x1024_S64x100x1024_2_1_1_2_0_0_wf : DotDims.WF S64x100x100 S64x100x1024 S64x100x1024 [2] [1] [1] [2] [0] [0]

variable [Facts₀]

def dot_S64x100x4096_S1024x4096_S64x100x1024_2_1_01_0_n_n : DotDims S64x100x4096 S1024x4096 S64x100x1024 where
  lhsContracting := [2]
  rhsContracting := [1]
  lhsNonContracting := [0, 1]
  rhsNonContracting := [0]
  lhsBatch := []
  rhsBatch := []
  wf := dot_S64x100x4096_S1024x4096_S64x100x1024_2_1_01_0_n_n_wf
def dot_S64x100x1024_S1024x1024_S64x100x1024_2_1_01_0_n_n : DotDims S64x100x1024 S1024x1024 S64x100x1024 where
  lhsContracting := [2]
  rhsContracting := [1]
  lhsNonContracting := [0, 1]
  rhsNonContracting := [0]
  lhsBatch := []
  rhsBatch := []
  wf := dot_S64x100x1024_S1024x1024_S64x100x1024_2_1_01_0_n_n_wf
def dot_S64x100x1024_S64x100x1024_S64x100x100_2_2_1_1_0_0 : DotDims S64x100x1024 S64x100x1024 S64x100x100 where
  lhsContracting := [2]
  rhsContracting := [2]
  lhsNonContracting := [1]
  rhsNonContracting := [1]
  lhsBatch := [0]
  rhsBatch := [0]
  wf := dot_S64x100x1024_S64x100x1024_S64x100x100_2_2_1_1_0_0_wf
def dot_S64x100x100_S64x100x1024_S64x100x1024_2_1_1_2_0_0 : DotDims S64x100x100 S64x100x1024 S64x100x1024 where
  lhsContracting := [2]
  rhsContracting := [1]
  lhsNonContracting := [1]
  rhsNonContracting := [2]
  lhsBatch := [0]
  rhsBatch := [0]
  wf := dot_S64x100x100_S64x100x1024_S64x100x1024_2_1_1_2_0_0_wf

class Facts : Prop extends Facts₀ where

variable [Facts]
-- ==== Proof.LibDotForms.lean ====
/-
  THE TWO RANK-2 PRODUCTS READ AT AN ENTRY, at the extended reals, for operands of any float formats.

  * `X · Wᵀ` — an [M, K] matrix against an [N, K] matrix, both contracted on their LAST axis
    (`DotDims.transposedRhs M K N`): entry (p, q) is `∑ k, X (p, k) * W (q, k)`;
  * `X · W` — an [M, K] matrix against a [K, N] matrix (`DotDims.plain M K N`): entry (p, q) is
    `∑ k, X (p, k) * W (k, q)`.

  In both the contraction index has one axis, of extent K, and is identified with its coordinate `k : Fin K`; the
  sum over the contraction index is re-indexed through that bijection. Each is stated for the block product into a
  zero accumulator and for the host's dot product, and once more for ANY dimension record equal to the named one
  (a program prints its own record with the same six lists; the equality is then `rfl`).
-/
import Idealize.ShloMosaic.PureOps.Ideal.Laws
import Idealize.ShloMosaic.Lib.ValueIdx

noncomputable section

open scoped BigOperators

namespace Cert.LibDotForms

open Idealize.ShloMosaic Idealize.ShloMosaic.ValueIdx

/-! ## `X · Wᵀ` -/

/-- The contraction index of `X · Wᵀ` is its one coordinate. -/
abbrev ceT (M K N : Nat) : (DotDims.transposedRhs M K N).contr.Idx ≃ Fin K :=
  contrEquiv1 (DotDims.transposedRhs M K N) K rfl rfl

/-- The left operand is read at (row of the entry, k). -/
theorem lhsIdxT (M K N : Nat) (j : (⟨2, ![M, N]⟩ : Shape).Idx) (k : Fin K) :
    (DotDims.transposedRhs M K N).lhsIdx j ((ceT M K N).symm k) = ix2 (n0 := M) (n1 := K) (j 0) k := by
  funext a; apply Fin.ext
  match a with
  | ⟨0, _⟩ => rfl
  | ⟨1, _⟩ =>
    exact (DotDims.lhsIdx_val_of_single (DotDims.transposedRhs M K N) (cl := 1) rfl j _).trans
      (contrEquiv1_symm_val _ K rfl rfl k)

/-- The right operand is read at (column of the entry, k): its rows are indexed by the result's columns. -/
theorem rhsIdxT (M K N : Nat) (j : (⟨2, ![M, N]⟩ : Shape).Idx) (k : Fin K) :
    (DotDims.transposedRhs M K N).rhsIdx j ((ceT M K N).symm k) = ix2 (n0 := N) (n1 := K) (j 1) k := by
  funext a; apply Fin.ext
  match a with
  | ⟨0, _⟩ => rfl
  | ⟨1, _⟩ =>
    exact (DotDims.rhsIdx_val_of_single (DotDims.transposedRhs M K N) (cr := 1) rfl j _).trans
      (contrEquiv1_symm_val _ K rfl rfl k)

/-- The block product `X · Wᵀ` into a zero accumulator, at an entry. -/
theorem matmulT_apply (M K N : Nat) (prec : Option ContractPrecision) {φ₁ φ₂ : FTy}
    (X : FVec Ideal ⟨2, ![M, K]⟩ φ₁) (W : FVec Ideal ⟨2, ![N, K]⟩ φ₂) (j : (⟨2, ![M, N]⟩ : Shape).Idx) :
    FloatOps.matmul (DotDims.transposedRhs M K N) prec X W (constant _ .f32 0x00000000#32) j
      = ∑ k : Fin K, X (ix2 (j 0) k) * W (ix2 (j 1) k) := by
  rw [Ideal.matmul_constant_zero_apply, ← Equiv.sum_comp (ceT M K N).symm]
  exact Finset.sum_congr rfl fun k _ => by rw [lhsIdxT, rhsIdxT]

/-- The host's dot product `X · Wᵀ`, at an entry. -/
theorem dotT_apply (M K N : Nat) (prec : Option ContractPrecision) (sched : HostSchedule) {φ₁ φ₂ : FTy}
    (X : FVec Ideal ⟨2, ![M, K]⟩ φ₁) (W : FVec Ideal ⟨2, ![N, K]⟩ φ₂) (j : (⟨2, ![M, N]⟩ : Shape).Idx) :
    FloatOps.dotGeneral (DotDims.transposedRhs M K N) prec sched X W j
      = ∑ k : Fin K, X (ix2 (j 0) k) * W (ix2 (j 1) k) := by
  rw [Ideal.dotGeneral_apply, ← Equiv.sum_comp (ceT M K N).symm]
  exact Finset.sum_congr rfl fun k _ => by rw [lhsIdxT, rhsIdxT]

/-- The same for any record with `X · Wᵀ`'s dimension numbers. -/
theorem matmulT_apply_of_eq {M K N : Nat} (D : DotDims ⟨2, ![M, K]⟩ ⟨2, ![N, K]⟩ ⟨2, ![M, N]⟩)
    (hD : D = DotDims.transposedRhs M K N) (prec : Option ContractPrecision) {φ₁ φ₂ : FTy}
    (X : FVec Ideal ⟨2, ![M, K]⟩ φ₁) (W : FVec Ideal ⟨2, ![N, K]⟩ φ₂) (j : (⟨2, ![M, N]⟩ : Shape).Idx) :
    FloatOps.matmul D prec X W (constant _ .f32 0x00000000#32) j = ∑ k : Fin K, X (ix2 (j 0) k) * W (ix2 (j 1) k) := by
  subst hD; exact matmulT_apply M K N prec X W j

/-! ## `X · W` -/

/-- The contraction index of `X · W` is its one coordinate. -/
abbrev ceP (M K N : Nat) : (DotDims.plain M K N).contr.Idx ≃ Fin K := contrEquiv1 (DotDims.plain M K N) K rfl rfl

/-- The left operand is read at (row of the entry, k). -/
theorem lhsIdxP (M K N : Nat) (j : (⟨2, ![M, N]⟩ : Shape).Idx) (k : Fin K) :
    (DotDims.plain M K N).lhsIdx j ((ceP M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans
      (contrEquiv1_symm_val _ K rfl rfl k)

/-- The right operand is read at (k, column of the entry). -/
theorem rhsIdxP (M K N : Nat) (j : (⟨2, ![M, N]⟩ : Shape).Idx) (k : Fin K) :
    (DotDims.plain M K N).rhsIdx j ((ceP M K N).symm k) = ix2 (n0 := K) (n1 := N) k (j 1) := by
  funext a; apply Fin.ext
  match a with
  | ⟨0, _⟩ =>
    exact (DotDims.rhsIdx_val_of_single (DotDims.plain M K N) (cr := 0) rfl j _).trans
      (contrEquiv1_symm_val _ K rfl rfl k)
  | ⟨1, _⟩ => rfl

/-- The block product `X · W` into a zero accumulator, at an entry. -/
theorem matmulP_apply (M K N : Nat) (prec : Option ContractPrecision) {φ₁ φ₂ : FTy}
    (X : FVec Ideal ⟨2, ![M, K]⟩ φ₁) (W : FVec Ideal ⟨2, ![K, N]⟩ φ₂) (j : (⟨2, ![M, N]⟩ : Shape).Idx) :
    FloatOps.matmul (DotDims.plain M K N) prec X W (constant _ .f32 0x00000000#32) j
      = ∑ k : Fin K, X (ix2 (j 0) k) * W (ix2 k (j 1)) := by
  rw [Ideal.matmul_constant_zero_apply, ← Equiv.sum_comp (ceP M K N).symm]
  exact Finset.sum_congr rfl fun k _ => by rw [lhsIdxP, rhsIdxP]

/-- The host's dot product `X · W`, at an entry. -/
theorem dotP_apply (M K N : Nat) (prec : Option ContractPrecision) (sched : HostSchedule) {φ₁ φ₂ : FTy}
    (X : FVec Ideal ⟨2, ![M, K]⟩ φ₁) (W : FVec Ideal ⟨2, ![K, N]⟩ φ₂) (j : (⟨2, ![M, N]⟩ : Shape).Idx) :
    FloatOps.dotGeneral (DotDims.plain M K N) prec sched X W j
      = ∑ k : Fin K, X (ix2 (j 0) k) * W (ix2 k (j 1)) := by
  rw [Ideal.dotGeneral_apply, ← Equiv.sum_comp (ceP M K N).symm]
  exact Finset.sum_congr rfl fun k _ => by rw [lhsIdxP, rhsIdxP]

/-- The same for any record with `X · W`'s dimension numbers. -/
theorem matmulP_apply_of_eq {M K N : Nat} (D : DotDims ⟨2, ![M, K]⟩ ⟨2, ![K, N]⟩ ⟨2, ![M, N]⟩)
    (hD : D = DotDims.plain M K N) (prec : Option ContractPrecision) {φ₁ φ₂ : FTy}
    (X : FVec Ideal ⟨2, ![M, K]⟩ φ₁) (W : FVec Ideal ⟨2, ![K, N]⟩ φ₂) (j : (⟨2, ![M, N]⟩ : Shape).Idx) :
    FloatOps.matmul D prec X W (constant _ .f32 0x00000000#32) j = ∑ k : Fin K, X (ix2 (j 0) k) * W (ix2 k (j 1)) := by
  subst hD; exact matmulP_apply M K N prec X W j

end Cert.LibDotForms

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.LibRowSoftmax.lean ====
/-
  A ROW-WISE SOFTMAX READ AT AN ENTRY, at the extended reals.

  For a row `r` of `b` scores: `rowMax r` is the row's maximum, folded from −∞ and joined once more with −∞ (the
  two steps a numerically careful softmax is written with); `rowExp r m` is `exp (r m − rowMax r)`; `softmaxRow r m` is that
  exponential divided by the sum of the row's exponentials. The word of −∞ is kept as its pattern.

  `vec_softmax_apply`: the vector unit's form over an [a, b] block — a lane maximum from −∞, joined with the splat of
  −∞, kept as a column [a, 1] and spread back over the block, subtracted, the exponential, its lane sum kept and
  spread the same way, the quotient — is, at entry (i, j), `softmaxRow` of row i at j. The pieces are stated on their
  own: the row maximum (`vec_rowMax_apply`), a vector kept as a column and spread over the block
  (`column_spread_apply`), the exponentials (`vec_rowExp_apply`), a lane sum as the sum over the row
  (`vec_rowSum_apply`).
-/
import Idealize.ShloMosaic.PureOps.Ideal.Laws
import Idealize.ShloMosaic.Lib.ValueIdx
import proofs.«124177_j28312424415653_1_alg».proof.Proof.LibKeepdims

noncomputable section

open scoped BigOperators

namespace Cert.LibRowSoftmax

open Idealize.ShloMosaic Idealize.ShloMosaic.ValueIdx

/-- The pattern of −∞ a row's maximum is started from. -/
abbrev negInf : EReal := Ideal.ofBits .f32 0xFF800000#32

/-- A row's maximum: folded from −∞, then joined with −∞. -/
def rowMax {b : ℕ} (r : Fin b → EReal) : EReal := max negInf ((Finset.univ : Finset (Fin b)).fold max negInf r)

/-- The exponential of a score less its row's maximum. -/
def rowExp {b : ℕ} (r : Fin b → EReal) (m : Fin b) : EReal := Ideal.exp (r m - rowMax r)

/-- The softmax of a row, at one position. -/
def softmaxRow {b : ℕ} (r : Fin b → EReal) (m : Fin b) : EReal := Ideal.div (rowExp r m) (∑ k : Fin b, rowExp r k)

/-- Over row `i` of an [a, b] block, the index with coordinate `k` put back on the lane axis is (i, k). -/
theorem lift_row {a b : ℕ} (hr : (⟨2, ![a, b]⟩ : Shape).Reduces [1] ⟨1, ![a]⟩) (i : Fin a)
    (k : Fin ((⟨2, ![a, b]⟩ : Shape).size 1)) : hr.lift (ix1 i) k = ix2 i (⟨k.val, k.isLt⟩ : Fin b) := by
  funext c; apply Fin.ext
  match c with
  | ⟨0, _⟩ => rfl
  | ⟨1, _⟩ => rfl

/-- The lane maximum from −∞, joined with the splat of −∞, at row `i`: the row's maximum. -/
theorem vec_rowMax_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ) (i : Fin a) :
    maximumf (broadcast ⟨1, ![a]⟩ (Scalar.ofBits (F := Ideal) .f32 0xFF800000#32))
        (multiReduction .maximumf [1] ⟨1, ![a]⟩ s 0xFF800000#32 hr hφ hmax) (ix1 i)
      = rowMax (fun m : Fin b => s (ix2 i m)) := by
  show max (Ideal.ofBits .f32 0xFF800000#32) (multiReduction .maximumf [1] ⟨1, ![a]⟩ s 0xFF800000#32 hr hφ hmax (ix1 i)) = _
  rw [Ideal.multiReduction_maximumf_single]
  unfold rowMax
  refine congrArg (max negInf) ?_
  have hf : (s ∘ hr.lift (ix1 i)) = fun k : Fin b => s (ix2 i k) := funext fun k => congrArg s (lift_row hr i k)
  exact congrArg (fun f => Finset.fold max (Ideal.ofBits .f32 0xFF800000#32) f (Finset.univ : Finset (Fin b))) hf

/-- A vector [a] kept as a column [a, 1] and spread over an [a, b] block reads, at (i, j), the vector at i. -/
theorem column_spread_apply {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ v hc) hb (ix2 i j) = v (ix1 i) := by
  rw [Cert.LibKeepdims.broadcastTo_a1_ab_apply, Cert.LibKeepdims.shapeCast_a_a1_apply]

/-- A lane sum at row `i`: the sum over the row. -/
theorem vec_rowSum_apply {a b : ℕ} (e : FVec Ideal ⟨2, ![a, b]⟩ .f32)
    (hr : (⟨2, ![a, b]⟩ : Shape).Reduces [1] ⟨1, ![a]⟩) (hφ : FKind.Formats .f32)
    (hadd : (0x00000000#32 : BitVec 32) = FKind.add.neutral .f32 hφ) (i : Fin a) :
    multiReduction .add [1] ⟨1, ![a]⟩ e 0x00000000#32 hr hφ hadd (ix1 i) = ∑ k : Fin b, e (ix2 i k) := by
  rw [Ideal.multiReduction_add_single]
  exact Finset.sum_congr rfl fun k _ => congrArg e (lift_row hr i k)

/-- The exponential of the block less its rows' maxima spread back, at (i, j). -/
theorem vec_rowExp_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, b]⟩)
    (i : Fin a) (j : Fin b) :
    exp (subf s (broadcastTo ⟨2, ![a, b]⟩ (shapeCast ⟨2, ![a, 1]⟩
        (maximumf (broadcast ⟨1, ![a]⟩ (Scalar.ofBits (F := Ideal) .f32 0xFF800000#32))
          (multiReduction .maximumf [1] ⟨1, ![a]⟩ s 0xFF800000#32 hr hφ hmax)) hc) hb)) (ix2 i j)
      = rowExp (fun m : Fin b => s (ix2 i m)) j := by
  show Ideal.exp (s (ix2 i j) - broadcastTo ⟨2, ![a, b]⟩ (shapeCast ⟨2, ![a, 1]⟩ _ hc) hb (ix2 i j)) = _
  rw [column_spread_apply, vec_rowMax_apply]
  rfl

/-- THE VECTOR UNIT'S SOFTMAX OVER THE LANES of an [a, b] block, at (i, j): the softmax of row i at j. -/
theorem vec_softmax_apply {a b : ℕ} (s : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (i : Fin a) (j : Fin b) :
    divf
        (exp (subf s (broadcastTo ⟨2, ![a, b]⟩ (shapeCast ⟨2, ![a, 1]⟩
          (maximumf (broadcast ⟨1, ![a]⟩ (Scalar.ofBits (F := Ideal) .f32 0xFF800000#32))
            (multiReduction .maximumf [1] ⟨1, ![a]⟩ s 0xFF800000#32 hr hφ hmax)) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (maximumf (broadcast ⟨1, ![a]⟩ (Scalar.ofBits (F := Ideal) .f32 0xFF800000#32))
                (multiReduction .maximumf [1] ⟨1, ![a]⟩ s 0xFF800000#32 hr hφ hmax)) hc) hb)))
            0x00000000#32 hr hφ hadd) hc) hb) (ix2 i j)
      = softmaxRow (fun m : Fin b => s (ix2 i m)) j := by
  show Ideal.div (exp (subf s _) (ix2 i j)) (broadcastTo ⟨2, ![a, b]⟩ (shapeCast ⟨2, ![a, 1]⟩ _ hc) hb (ix2 i j)) = _
  rw [column_spread_apply, vec_rowSum_apply, vec_rowExp_apply]
  unfold softmaxRow
  refine congrArg (Ideal.div _) (Finset.sum_congr rfl fun k _ => ?_)
  exact vec_rowExp_apply s hr hφ hmax hc hb i k

end Cert.LibRowSoftmax

end
-- ==== Proof.Spec.lean ====
/-
  THE FUNCTION BOTH PROGRAMS COMPUTE, for one batch element, entry by entry over the extended reals.

  One batch element is a set of 100 regions, each a feature row of 4096 numbers `x n`. With the projection
  `wp` (1024 × 4096), the three square maps `wφ`, `wψ`, `wg` and the output map `wr` (1024 × 1024 each, applied
  as `h ↦ h · wᵀ`) and the bias `br`:

      p       = x · wpᵀ                                   (100 × 1024)
      s n m   = ∑ d, (p · wφᵀ) n d * (p · wψᵀ) m d          (100 × 100: how region n looks at region m)
      a n     = the softmax of row n of s, taken after subtracting the row's maximum
      out n e = (∑ d, (∑ m, a n m * (p · wgᵀ) m d) * wr e d + br e) + p n e.

  Row n of the result depends on the batch element's own rows only, and on no other batch element: the whole
  result (`result`) at (b, n, e) is `out` of batch element b's rows at (n, e).
  The softmax of a row (`softmaxRow`, with the row's maximum folded from −∞ and joined once more with −∞, as both
  programs spell it) is the one of the row-softmax lemma file.
-/
import proofs.«124177_j28312424415653_1_alg».proof.Proof.LibRowSoftmax

noncomputable section

open scoped BigOperators

namespace Cert.Relation

open Idealize.ShloMosaic Cert.LibRowSoftmax

/-- A rank-2 array as a function of (row, column): how a weight matrix, or a 100 × 1024 array of rows, enters the
    formulas below. -/
def tile {a b : ℕ} (w : (⟨2, ![a, b]⟩ : Shape).Idx → EReal) : Fin a → Fin b → EReal := fun p q => w (ValueIdx.ix2 p q)

theorem tile_apply {a b : ℕ} (w : (⟨2, ![a, b]⟩ : Shape).Idx → EReal) (p : Fin a) (q : Fin b) :
    tile w p q = w (ValueIdx.ix2 p q) := rfl

section
variable (x : Fin 100 → Fin 4096 → EReal) (wp : Fin 1024 → Fin 4096 → EReal)
  (wφ wψ wg wr : Fin 1024 → Fin 1024 → EReal) (br : Fin 1024 → EReal)

/-- The projected regions `x · wpᵀ`. -/
def proj (n : Fin 100) (d : Fin 1024) : EReal := ∑ f : Fin 4096, x n f * wp d f

/-- A square map applied to a 100 × 1024 array of rows: `h · wᵀ`. -/
def lin (h : Fin 100 → Fin 1024 → EReal) (w : Fin 1024 → Fin 1024 → EReal) (n : Fin 100) (e : Fin 1024) : EReal :=
  ∑ d : Fin 1024, h n d * w e d

/-- The score of region `n` against region `m`. -/
def score (n m : Fin 100) : EReal := ∑ d : Fin 1024, lin (proj x wp) wφ n d * lin (proj x wp) wψ m d

/-- The weight region `n` gives region `m`: the softmax of `n`'s row of scores. -/
def weight (n m : Fin 100) : EReal := softmaxRow (fun k => score x wp wφ wψ n k) m

/-- The regions' `wg`-images mixed by the weights. -/
def mixed (n : Fin 100) (d : Fin 1024) : EReal := ∑ m : Fin 100, weight x wp wφ wψ n m * lin (proj x wp) wg m d

/-- The result for the batch element: the mixed rows through `wr`, plus the bias, plus the projected rows. -/
def out (n : Fin 100) (e : Fin 1024) : EReal :=
  (lin (mixed x wp wφ wψ wg) wr n e + br e) + proj x wp n e

end

/-! ## The whole result -/

/-- The rows of batch element `b` of a [64, 100, 4096] array of regions. -/
def batchRows (A0 : (⟨3, ![64, 100, 4096]⟩ : Shape).Idx → EReal) (b : Fin 64) : Fin 100 → Fin 4096 → EReal :=
  fun n f => A0 (ValueIdx.ix3 b n f)

/-- A bias vector as a function of its coordinate. -/
def biasVec (A6 : (⟨1, ![1024]⟩ : Shape).Idx → EReal) : Fin 1024 → EReal := fun e => A6 (ValueIdx.ix1 e)

/-- THE WHOLE RESULT as one function of the seven arguments: at (b, n, e), the result for batch element b at (n, e). -/
def result (A0 : (⟨3, ![64, 100, 4096]⟩ : Shape).Idx → EReal) (A1 : (⟨2, ![1024, 4096]⟩ : Shape).Idx → EReal)
    (A2 A3 A4 A5 : (⟨2, ![1024, 1024]⟩ : Shape).Idx → EReal) (A6 : (⟨1, ![1024]⟩ : Shape).Idx → EReal) :
    (⟨3, ![64, 100, 1024]⟩ : Shape).Idx → EReal :=
  fun i => out (batchRows A0 (i 0)) (tile A1) (tile A2) (tile A3) (tile A4) (tile A5) (biasVec A6) (i 1) (i 2)

end Cert.Relation

end
-- ==== Proof.KernelBody.lean ====
/-
  WHAT THE KERNEL'S BODY STORES, entry by entry: for any contents of its seven input tiles — the batch element's
  [1, 100, 4096] block of regions, the five weight tiles and the [1, 1024] bias row — the value it stores at
  (0, n, e) is `Relation.out` of the block's rows and the tiles at (n, e).

  The body is a chain of block products into zero accumulators (`h · wᵀ` five times and the scores `φ · ψᵀ`, all
  contracted on the last axes; the weights against the `wg`-image contracted row against column), the lane-wise softmax
  of the scores, and two additions. Each product is read at an entry as a sum over the contracted coordinate, the
  softmax as the row softmax, the changes of float format are the identity on extended reals, and the casts that drop
  or add the block's unit axis move no entry.
-/
import proofs.«124177_j28312424415653_1_alg».proof.Proof.Gen.KernelIdeal.Skeleton
import proofs.«124177_j28312424415653_1_alg».proof.Proof.LibDotForms
import proofs.«124177_j28312424415653_1_alg».proof.Proof.Spec
import Idealize.ShloMosaic.Lib.Pipeline.Value

noncomputable section

open scoped BigOperators

namespace Cert.KernelIdeal.Body

open Cert.KernelIdeal Cert.KernelIdeal.Gen Idealize.ShloMosaic Idealize.ShloMosaic.ValueIdx
open Cert.Relation Cert.LibRowSoftmax Cert.LibDotForms

/-! ## Tiles as functions of their coordinates -/

/-- The rows of a [1, 100, 4096] block of regions. -/
def blockRows (x0 : (⟨3, ![1, 100, 4096]⟩ : Shape).Idx → EReal) : Fin 100 → Fin 4096 → EReal :=
  fun n f => x0 (ix3 (0 : Fin 1) n f)

/-- The one row of a [1, 1024] bias tile. -/
def biasRow (x6 : (⟨2, ![1, 1024]⟩ : Shape).Idx → EReal) : Fin 1024 → EReal := fun e => x6 (ix2 (0 : Fin 1) e)

/-- A change of float format moves nothing at the extended reals. -/
theorem truncf_id {s : Shape} {φ ψ : FTy} (a : FVec Ideal s φ) (h : ψ.bits < φ.bits) :
    (truncf ψ a h : FVec Ideal s ψ) = a := rfl

/-! ## The products -/

/-- The projected regions: the block, its unit axis dropped, against the projection tile. -/
theorem tile_pay2 (x0 : Vec Ideal S1x100x4096 .f32) (x1 : Vec Ideal S1024x4096 .bf16) :
    tile (k0_pay2 x0 x1) = proj (blockRows x0) (tile x1) := by
  funext n d
  unfold k0_pay2
  dsimp only
  rw [tile_apply]
  refine (matmulT_apply_of_eq _ rfl none _ _ (ix2 n d)).trans ?_
  unfold proj
  refine Finset.sum_congr rfl fun f _ => ?_
  rw [shapeCast_self, truncf_id]
  refine congrArg (· * _) ?_
  refine (shapeCast_dropUnit_apply ![100, 4096] x0 _ (ix2 n f)).trans (congrArg x0 ?_)
  funext a
  match a with
  | ⟨0, _⟩ => rfl
  | ⟨1, _⟩ => rfl
  | ⟨2, _⟩ => rfl

/-- A square map applied to rows: `h · wᵀ` with the weight tile loaded whole. -/
theorem tile_lin (h : FVec Ideal S100x1024 .f32) (w : Vec Ideal S1024x1024 .bf16)
    (hlt : FTy.bits .bf16 < FTy.bits .f32) (hsc : S1024x1024.ShapeCasts S1024x1024) :
    tile (matmul dot_S100x1024_S1024x1024_S100x1024_1_1_0_0_n_n none (truncf .bf16 h hlt)
      (shapeCast S1024x1024 w hsc : FVec Ideal S1024x1024 .bf16) (constant S100x1024 .f32 0x00000000#32)) = lin (tile h) (tile w) := by
  funext n e
  rw [tile_apply]
  refine (matmulT_apply_of_eq _ rfl none _ _ (ix2 n e)).trans ?_
  rw [shapeCast_self, truncf_id]
  rfl

/-- The scores: `φ · ψᵀ`. -/
theorem tile_scores (p q : FVec Ideal S100x1024 .f32) (hlt : FTy.bits .bf16 < FTy.bits .f32) :
    tile (matmul dot_S100x1024_S100x1024_S100x100_1_1_0_0_n_n none (truncf .bf16 p hlt) (truncf .bf16 q hlt)
      (constant S100x100 .f32 0x00000000#32)) = fun n m => ∑ d : Fin 1024, tile p n d * tile q m d := by
  funext n m
  rw [tile_apply]
  refine (matmulT_apply_of_eq _ rfl none _ _ (ix2 n m)).trans ?_
  rw [truncf_id, truncf_id]
  rfl

/-- The weights against the `wg`-image: rows of the weights against columns of the image. -/
theorem tile_mix (r : FVec Ideal S100x100 .f32) (g : FVec Ideal S100x1024 .f32) (hlt : FTy.bits .bf16 < FTy.bits .f32) :
    tile (matmul dot_S100x100_S100x1024_S100x1024_1_0_0_1_n_n none (truncf .bf16 r hlt) (truncf .bf16 g hlt)
      (constant S100x1024 .f32 0x00000000#32)) = fun n d => ∑ m : Fin 100, tile r n m * tile g m d := by
  funext n d
  rw [tile_apply]
  refine (matmulP_apply_of_eq _ rfl none _ _ (ix2 n d)).trans ?_
  rw [truncf_id, truncf_id]
  rfl

/-! ## The mixed rows -/

/-- The value the body carries to its last product: the `wg`-images mixed by the softmax weights. -/
theorem tile_pay4 (x0 : Vec Ideal S1x100x4096 .f32) (x1 : Vec Ideal S1024x4096 .bf16) (x2 x3 x4 : Vec Ideal S1024x1024 .bf16) :
    tile (k0_pay4 x0 x1 x2 x3 x4) = mixed (blockRows x0) (tile x1) (tile x2) (tile x3) (tile x4) := by
  unfold k0_pay4
  dsimp only
  refine (congrArg tile (truncf_id _ _)).trans ?_
  rw [tile_mix]
  funext n d
  unfold mixed
  refine Finset.sum_congr rfl fun m _ => ?_
  rw [tile_lin, tile_pay2]
  refine congrArg (· * _) ?_
  rw [tile_apply]
  refine (vec_softmax_apply _ _ _ _ _ _ _ n m).trans ?_
  unfold weight
  refine congrArg (fun r => softmaxRow r m) (funext fun k => ?_)
  refine (tile_apply _ n k).symm.trans ?_
  rw [tile_scores, tile_lin, tile_lin, tile_pay2]
  rfl

/-! ## The stored value -/

/-- THE BODY AT AN ENTRY: what it stores at (0, n, e) is the result for the block's batch element at (n, e). -/
theorem stored_apply (x0 : Vec Ideal S1x100x4096 .f32) (x1 : Vec Ideal S1024x4096 .bf16) (x2 x3 x4 x5 : Vec Ideal S1024x1024 .bf16)
    (x6 : Vec Ideal S1x1024 .f32) (n : Fin 100) (e : Fin 1024) :
    k0_pay1 (k0_pay2 x0 x1) (k0_pay3 x5) (k0_pay4 x0 x1 x2 x3 x4) (constant S100x1024 .f32 0x00000000#32) x6 (ix3 (0 : Fin 1) n e)
      = out (blockRows x0) (tile x1) (tile x2) (tile x3) (tile x4) (tile x5) (biasRow x6) n e := by
  unfold k0_pay1 k0_pay3
  dsimp only
  refine (shapeCast_addUnit_apply ![100, 1024] _ _ (ix3 (0 : Fin 1) n e)).trans ?_
  have hi : (fun a : Fin 2 => (ix3 (0 : Fin 1) n e) a.succ) = ix2 n e := by
    funext a
    match a with
    | ⟨0, _⟩ => rfl
    | ⟨1, _⟩ => rfl
  rw [hi]
  unfold out
  show (FloatOps.matmul _ none _ _ _ (ix2 n e) + broadcastTo S100x1024 _ _ (ix2 n e)) + k0_pay2 x0 x1 (ix2 n e) = _
  rw [← tile_apply (k0_pay2 x0 x1), tile_pay2]
  refine congrArg (· + _) ?_
  refine congrArg₂ (· + ·) ?_ ?_
  · refine (matmulT_apply_of_eq _ rfl none _ _ (ix2 n e)).trans ?_
    rw [shapeCast_self]
    unfold lin
    refine Finset.sum_congr rfl fun d _ => ?_
    rw [← tile_apply (k0_pay4 x0 x1 x2 x3 x4), tile_pay4]
    rfl
  · rw [shapeCast_self]
    refine broadcastTo_apply x6 _ (ix2 n e) (ix2 (0 : Fin 1) e) fun a => ?_
    match a with
    | ⟨0, _⟩ => rfl
    | ⟨1, _⟩ => rfl

end Cert.KernelIdeal.Body

end
-- ==== Proof.KernelArray.lean ====
/-
  FROM THE KERNEL'S BLOCKS TO ITS RESULT ARRAY. Grid point t is batch element t: it is handed block t of the regions
  (rows (t, ·, ·) of the first argument), every weight tile whole and the bias row, and writes back block t of the
  result. What it writes is, by the body's reading, `Relation.out` of batch element t — block t of the one
  whole-array function `result` of the arguments. The 64 blocks tile the result array, so after the run the array is
  `result`.

  The tiles the region is handed are the host's conversions of the arguments: each weight matrix changed to a narrower
  float format, which moves nothing at the extended reals, and the bias vector reshaped to one row.
-/
import proofs.«124177_j28312424415653_1_alg».proof.Proof.Gen.KernelIdeal.Value
import proofs.«124177_j28312424415653_1_alg».proof.Proof.KernelBody
import Idealize.ShloMosaic.Lib.StableHlo.Run

set_option maxRecDepth 16384

noncomputable section

open scoped BigOperators

namespace Cert.KernelIdeal.Whole

open Cert.KernelIdeal Cert.KernelIdeal.Gen Cert.KernelIdeal.Value Cert.KernelIdeal.Body
open Idealize.ShloMosaic Idealize.ShloMosaic.TcCoe Idealize.ShloMosaic.ValueIdx Idealize.SL.Sem
open Idealize.ShloMosaic.Pipeline (Dat)
open Cert.Relation

variable (m : (ℓ : Loc nD τ sig) → Buf (Elt Ideal) ℓ) (ρ : Dev nD → PrngReg)

/-- The result of the arguments as launched on core `c`. -/
abbrev resultOf (c : Dev nD) : S64x100x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## What the region is handed -/

theorem V_v0 (c : Dev nD) : (V m c main_v0 : S1024x4096.Idx → EReal) = m ((c : Thread nD τ).loc main_arg1) := by
  dsimp only [V, hostOps0]; after_results; rfl
theorem V_v1 (c : Dev nD) : (V m c main_v1 : S1024x1024.Idx → EReal) = m ((c : Thread nD τ).loc main_arg2) := by
  dsimp only [V, hostOps0]; after_results; rfl
theorem V_v2 (c : Dev nD) : (V m c main_v2 : S1024x1024.Idx → EReal) = m ((c : Thread nD τ).loc main_arg3) := by
  dsimp only [V, hostOps0]; after_results; rfl
theorem V_v3 (c : Dev nD) : (V m c main_v3 : S1024x1024.Idx → EReal) = m ((c : Thread nD τ).loc main_arg4) := by
  dsimp only [V, hostOps0]; after_results; rfl
theorem V_v4 (c : Dev nD) : (V m c main_v4 : S1024x1024.Idx → EReal) = m ((c : Thread nD τ).loc main_arg5) := by
  dsimp only [V, hostOps0]; after_results; rfl
theorem V_v5 (c : Dev nD) : (V m c main_v5 : S1x1024.Idx → EReal)
    = shapeCast S1x1024 (m ((c : Thread nD τ).loc main_arg6) : S1024.Idx → EReal) shapeCasts_S1024_S1x1024 := by
  dsimp only [V, hostOps0]; after_results; rfl

/-! ## The windows' blocks at a point -/

/-- The printed index maps over the 64 points: the regions' and the result's windows are at block (t, 0, 0), every
    other window stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-- Grid point `t` as a batch coordinate. -/
def batchOf (t : Fin cfg0.N) : Fin 64 := ⟨t.val, by have h := t.isLt; have e : cfg0.N = 64 := N_0; omega⟩

/-- The regions' block at point `t` is batch element `t`'s rows. -/
theorem rows_blk0 (c : Dev nD) (t : Fin cfg0.N) :
    blockRows (iblk m c 0 t) = batchRows (m ((c : Thread nD τ).loc main_arg0)) (batchOf t) := by
  obtain ⟨e0, e1, e2, -⟩ := idx_facts t
  funext n f
  show V m c main_arg0 (((cfg0.win 0).blk t).view.emb (ix3 (0 : Fin 1) n f)) = m ((c : Thread nD τ).loc main_arg0) (ix3 (batchOf t) n f)
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 100 + 1 * n.val = n.val; omega
  | ⟨2, _⟩ => show win0_0.index t (2 : Fin 3) * 4096 + 1 * f.val = f.val; omega

/-- The projection tile at any point is the projection matrix. -/
theorem tile_blk1 (c : Dev nD) (t : Fin cfg0.N) : tile (iblk m c 1 t) = tile (m ((c : Thread nD τ).loc main_arg1)) := by
  obtain ⟨-, -, -, e0, e1, -⟩ := idx_facts t
  funext p q
  show V m c main_v0 (((cfg0.win 1).blk t).view.emb (ix2 p q)) = m ((c : Thread nD τ).loc main_arg1) (ix2 p q)
  rw [V_v0]
  refine congrArg _ (funext fun a => Fin.ext ?_)
  match a with
  | ⟨0, _⟩ => show win0_1.index t (0 : Fin 2) * 1024 + 1 * p.val = p.val; omega
  | ⟨1, _⟩ => show win0_1.index t (1 : Fin 2) * 4096 + 1 * q.val = q.val; omega

theorem tile_blk2 (c : Dev nD) (t : Fin cfg0.N) : tile (iblk m c 2 t) = tile (m ((c : Thread nD τ).loc main_arg2)) := by
  obtain ⟨-, -, -, -, -, e0, e1, -⟩ := idx_facts t
  funext p q
  show V m c main_v1 (((cfg0.win 2).blk t).view.emb (ix2 p q)) = m ((c : Thread nD τ).loc main_arg2) (ix2 p q)
  rw [V_v1]
  refine congrArg _ (funext fun a => Fin.ext ?_)
  match a with
  | ⟨0, _⟩ => show win0_2.index t (0 : Fin 2) * 1024 + 1 * p.val = p.val; omega
  | ⟨1, _⟩ => show win0_2.index t (1 : Fin 2) * 1024 + 1 * q.val = q.val; omega

theorem tile_blk3 (c : Dev nD) (t : Fin cfg0.N) : tile (iblk m c 3 t) = tile (m ((c : Thread nD τ).loc main_arg3)) := by
  obtain ⟨-, -, -, -, -, -, -, e0, e1, -⟩ := idx_facts t
  funext p q
  show V m c main_v2 (((cfg0.win 3).blk t).view.emb (ix2 p q)) = m ((c : Thread nD τ).loc main_arg3) (ix2 p q)
  rw [V_v2]
  refine congrArg _ (funext fun a => Fin.ext ?_)
  match a with
  | ⟨0, _⟩ => show win0_3.index t (0 : Fin 2) * 1024 + 1 * p.val = p.val; omega
  | ⟨1, _⟩ => show win0_3.index t (1 : Fin 2) * 1024 + 1 * q.val = q.val; omega

theorem tile_blk4 (c : Dev nD) (t : Fin cfg0.N) : tile (iblk m c 4 t) = tile (m ((c : Thread nD τ).loc main_arg4)) := by
  obtain ⟨-, -, -, -, -, -, -, -, -, e0, e1, -⟩ := idx_facts t
  funext p q
  show V m c main_v3 (((cfg0.win 4).blk t).view.emb (ix2 p q)) = m ((c : Thread nD τ).loc main_arg4) (ix2 p q)
  rw [V_v3]
  refine congrArg _ (funext fun a => Fin.ext ?_)
  match a with
  | ⟨0, _⟩ => show win0_4.index t (0 : Fin 2) * 1024 + 1 * p.val = p.val; omega
  | ⟨1, _⟩ => show win0_4.index t (1 : Fin 2) * 1024 + 1 * q.val = q.val; omega

theorem tile_blk5 (c : Dev nD) (t : Fin cfg0.N) : tile (iblk m c 5 t) = tile (m ((c : Thread nD τ).loc main_arg5)) := by
  obtain ⟨-, -, -, -, -, -, -, -, -, -, -, e0, e1, -⟩ := idx_facts t
  funext p q
  show V m c main_v4 (((cfg0.win 5).blk t).view.emb (ix2 p q)) = m ((c : Thread nD τ).loc main_arg5) (ix2 p q)
  rw [V_v4]
  refine congrArg _ (funext fun a => Fin.ext ?_)
  match a with
  | ⟨0, _⟩ => show win0_5.index t (0 : Fin 2) * 1024 + 1 * p.val = p.val; omega
  | ⟨1, _⟩ => show win0_5.index t (1 : Fin 2) * 1024 + 1 * q.val = q.val; omega

/-- The bias tile at any point is the bias vector as a row. -/
theorem bias_blk6 (c : Dev nD) (t : Fin cfg0.N) : biasRow (iblk m c 6 t) = biasVec (m ((c : Thread nD τ).loc main_arg6)) := by
  obtain ⟨-, -, -, -, -, -, -, -, -, -, -, -, -, e0, e1, -⟩ := idx_facts t
  funext e
  show V m c main_v5 (((cfg0.win 6).blk t).view.emb (ix2 (0 : Fin 1) e)) = m ((c : Thread nD τ).loc main_arg6) (ix1 e)
  rw [V_v5]
  refine (shapeCast_addUnit_apply ![1024] _ _ _).trans (congrArg _ (funext fun a => Fin.ext ?_))
  match a with
  | ⟨0, _⟩ => show win0_6.index t (1 : Fin 2) * 1024 + 1 * e.val = e.val; omega

/-! ## What a point writes back, the cover, the array -/

theorem hz3 : (![0, 0, 0] : Fin 3 → Nat) = fun _ => 0 := funext fun a => by fin_cases a <;> rfl
theorem hz2 : (![0, 0] : Fin 2 → Nat) = fun _ => 0 := funext fun a => by fin_cases a <;> rfl

/-- WHAT POINT `t` WRITES BACK is block `t` of `result` of the arguments. -/
theorem flushed_eq (c : Dev nD) (t : Fin cfg0.N) :
    (dats m 0 c).flushed 7 t = ((cfg0.win 7).blk t).view.read (Elt Ideal) (resultOf m c) := by
  rw [flushed7]
  unfold out0_7
  rw [View.canon_unit_zero hz3]
  simp only [View.ld_unit_zero (S := S1x100x4096) hz3, View.ld_unit_zero (S := S1024x4096) hz2,
    View.ld_unit_zero (S := S1024x1024) hz2, View.ld_unit_zero (S := S1x1024) hz2]
  obtain ⟨-, -, -, -, -, -, -, -, -, -, -, -, -, -, -, e0, e1, e2⟩ := idx_facts t
  funext y
  obtain ⟨u, n, e, rfl⟩ : ∃ (u : Fin 1) (n : Fin 100) (e : Fin 1024), y = ix3 u n e := ⟨y 0, y 1, y 2, eq_ix3 y⟩
  obtain rfl : u = 0 := Subsingleton.elim _ _
  show k0_pay1 (k0_pay2 (iblk m c 0 t) (iblk m c 1 t)) (k0_pay3 (iblk m c 5 t))
      (k0_pay4 (iblk m c 0 t) (iblk m c 1 t) (iblk m c 2 t) (iblk m c 3 t) (iblk m c 4 t))
      (constant S100x1024 .f32 0x00000000#32) (iblk m c 6 t) (ix3 (0 : Fin 1) n e)
    = resultOf m c (((cfg0.win 7).blk t).view.emb (ix3 (0 : Fin 1) n e))
  refine (stored_apply (iblk m c 0 t) (iblk m c 1 t) (iblk m c 2 t) (iblk m c 3 t) (iblk m c 4 t) (iblk m c 5 t) (iblk m c 6 t) n e).trans ?_
  rw [rows_blk0, tile_blk1, tile_blk2, tile_blk3, tile_blk4, tile_blk5, bias_blk6]
  have hi : ((cfg0.win 7).blk t).view.emb (ix3 (0 : Fin 1) n e) = ix3 (batchOf t) n e := by
    funext a; apply Fin.ext
    match a with
    | ⟨0, _⟩ => show win0_7.index t (0 : Fin 3) * 1 + 1 * 0 = t.val; omega
    | ⟨1, _⟩ => show win0_7.index t (1 : Fin 3) * 100 + 1 * n.val = n.val; omega
    | ⟨2, _⟩ => show win0_7.index t (2 : Fin 3) * 1024 + 1 * e.val = e.val; omega
  rw [hi]
  rfl

/-- An index of the result array is in point `t`'s block iff each coordinate is in the block's range on its axis. -/
theorem mem_blk (t : Fin cfg0.N) (i : S64x100x1024.Idx) :
    i ∈ ((cfg0.win 7).blk t).view.set ↔ ∀ a : Fin 3, win0_7.index t a * S1x100x1024.size a ≤ (i a).val ∧ (i a).val < win0_7.index t a * S1x100x1024.size a + S1x100x1024.size a := by
  show i ∈ ((View.whole main_v6).slice (win0_7.rect t)).set ↔ _
  rw [View.set_slice_whole, Rect.mem_set_unit]
  exact Iff.rfl

/-- Every index (b, n, e) of the result array lies in the block of point b. -/
theorem cover (i : S64x100x1024.Idx) : ∃ t : Fin cfg0.N, (cfg0.win 7).flush t = true ∧ i ∈ ((cfg0.win 7).blk t).view.set := by
  have hb : (i 0).val < 64 := (i 0).isLt
  have hn : (i 1).val < 100 := (i 1).isLt
  have he : (i 2).val < 1024 := (i 2).isLt
  let t : Fin cfg0.N := ⟨(i 0).val, by have e : cfg0.N = 64 := N_0; omega⟩
  obtain ⟨-, -, -, -, -, -, -, -, -, -, -, -, -, -, -, e0, e1, e2⟩ := idx_facts t
  have ht : t.val = (i 0).val := rfl
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 100 ≤ (i 1).val ∧ (i 1).val < win0_7.index t (1 : Fin 3) * 100 + 100; omega
  | ⟨2, _⟩ => show win0_7.index t (2 : Fin 3) * 1024 ≤ (i 2).val ∧ (i 2).val < win0_7.index t (2 : Fin 3) * 1024 + 1024; omega

/-- THE RESULT ARRAY after the run is `result` of the arguments. -/
theorem final (c : Dev nD) : (dats m 0 c).arrAt 7 cfg0.N = resultOf m c :=
  (dats m 0 c).arrAt_eq_of_cover 7 (resultOf m c) (fun t _ => flushed_eq m c t) cover

/-- The kernel's run, read: the result array at `result` of the arguments, the arguments unchanged. -/
theorem run : θ_run defs (onTc (τ := τ) (main (F := Ideal))) ⟨m, fun _ => 0, ρ⟩ fun r => ∀ c : Dev nD,
      r.2.mem ((c : Thread nD τ).loc main_v6) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.RefValue.lean ====
/-
  WHAT THE REFERENCE COMPUTES, entry by entry: at (b, n, e) its result is `Relation.out` of batch element b's rows of
  the first argument and of the weight matrices, at (n, e).

  The reference is the same chain of operations as the kernel's body with a leading batch axis carried through every
  array: its products contract the last axis (a weight matrix shared by all batch elements, or, for the scores and
  the mixing, two arrays with the batch axis in common), its softmax reduces the last axis. Reading each operation at
  an index with the batch coordinate fixed gives the batch element's own formula, stage by stage.
-/
import proofs.«124177_j28312424415653_1_alg».proof.Proof.Gen.ReferenceIdeal.Read
import proofs.«124177_j28312424415653_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Relation Cert.LibRowSoftmax

/-- Two rank-3 indices with the same three coordinates, and two rank-2 ones with the same two. -/
local macro "coords3" : tactic => `(tactic| (funext a; match a with | ⟨0, _⟩ => rfl | ⟨1, _⟩ => rfl | ⟨2, _⟩ => rfl))
local macro "coords2" : tactic => `(tactic| (funext a; match a with | ⟨0, _⟩ => rfl | ⟨1, _⟩ => rfl))

variable (X0 : (⟨S64x100x4096, .f32⟩ : BufTy).Contents (Elt Ideal)) (X1 : (⟨S1024x4096, .f32⟩ : BufTy).Contents (Elt Ideal))
  (X2 X3 X4 X5 : (⟨S1024x1024, .f32⟩ : BufTy).Contents (Elt Ideal)) (X6 : (⟨S1024, .f32⟩ : BufTy).Contents (Elt Ideal))
  (b : Fin 64)

/-! ## The projections -/

/-- The projected regions of batch element `b`. -/
theorem v0_at (n : Fin 100) (d : Fin 1024) :
    val_main_v0 (F := Ideal) X0 X1 (ix3 b n d) = proj (batchRows X0 b) (tile X1) n d := by
  rw [val_main_v0_apply]
  unfold proj
  refine Finset.sum_congr rfl fun f _ => ?_
  refine congrArg₂ (· * ·) (congrArg X0 ?_) (congrArg X1 ?_)
  · coords3
  · coords2

/-- Its image under the first square map. -/
theorem v1_at (n : Fin 100) (e : Fin 1024) :
    val_main_v1 (F := Ideal) X0 X1 X2 (ix3 b n e) = lin (proj (batchRows X0 b) (tile X1)) (tile X2) n e := by
  rw [val_main_v1_apply]
  unfold lin
  refine Finset.sum_congr rfl fun d _ => ?_
  refine congrArg₂ (· * ·) ?_ (congrArg X2 ?_)
  · rw [show lidx_main_v1 (ix3 b n e) d = ix3 b n d by coords3]
    exact v0_at X0 X1 b n d
  · coords2

/-- Its image under the second. -/
theorem v2_at (n : Fin 100) (e : Fin 1024) :
    val_main_v2 (F := Ideal) X0 X1 X3 (ix3 b n e) = lin (proj (batchRows X0 b) (tile X1)) (tile X3) n e := by
  rw [val_main_v2_apply]
  unfold lin
  refine Finset.sum_congr rfl fun d _ => ?_
  refine congrArg₂ (· * ·) ?_ (congrArg X3 ?_)
  · rw [show lidx_main_v2 (ix3 b n e) d = ix3 b n d by coords3]
    exact v0_at X0 X1 b n d
  · coords2

/-- Its image under the third. -/
theorem v15_at (n : Fin 100) (e : Fin 1024) :
    val_main_v15 (F := Ideal) X0 X1 X4 (ix3 b n e) = lin (proj (batchRows X0 b) (tile X1)) (tile X4) n e := by
  rw [val_main_v15_apply]
  unfold lin
  refine Finset.sum_congr rfl fun d _ => ?_
  refine congrArg₂ (· * ·) ?_ (congrArg X4 ?_)
  · rw [show lidx_main_v15 (ix3 b n e) d = ix3 b n d by coords3]
    exact v0_at X0 X1 b n d
  · coords2

/-! ## The scores and their softmax -/

/-- The score of region `n` against region `m` of batch element `b`. -/
theorem v3_at (n m : Fin 100) :
    val_main_v3 (F := Ideal) X0 X1 X2 X3 (ix3 b n m) = score (batchRows X0 b) (tile X1) (tile X2) (tile X3) n m := by
  rw [val_main_v3_apply]
  unfold score
  refine Finset.sum_congr rfl fun d _ => ?_
  rw [show lidx_main_v3 (ix3 b n m) d = ix3 b n d by coords3, show ridx_main_v3 (ix3 b n m) d = ix3 b m d by coords3,
    v1_at, v2_at]

/-- Over (b, n), the index with coordinate `k` put back on the last axis is (b, n, k). -/
theorem lift_last (h : S64x100x100.Reduces [2] S64x100) (n : Fin 100) (k : Fin (S64x100x100.size 2)) :
    h.lift (ix2 b n) k = ix3 b n (⟨k.val, k.isLt⟩ : Fin 100) := by
  funext c; apply Fin.ext
  match c with
  | ⟨0, _⟩ => rfl
  | ⟨1, _⟩ => rfl
  | ⟨2, _⟩ => rfl

/-- The maximum of row `n`'s scores, as the reference takes it: folded from −∞, then joined with −∞. -/
theorem v6_at (n : Fin 100) :
    val_main_v6 (F := Ideal) X0 X1 X2 X3 (ix2 b n)
      = rowMax (fun m => score (batchRows X0 b) (tile X1) (tile X2) (tile X3) n m) := by
  rw [val_main_v6_apply, val_main_v5_apply, val_main_cst_0_apply]
  unfold rowMax val_main_v4
  refine congrArg (max negInf) ?_
  rw [Host.reduce_eq_fold_single FloatOps.maximumf _ _ reducesTo_S64x100x100_S64x100_d2 (by decide) h_S_]
  have hf : (val_main_v3 (F := Ideal) X0 X1 X2 X3 ∘ Shape.Reduces.lift (by decide : S64x100x100.Reduces [2] S64x100) (ix2 b n))
      = fun m : Fin 100 => score (batchRows X0 b) (tile X1) (tile X2) (tile X3) n m :=
    funext fun k => (congrArg _ (lift_last b _ n k)).trans (v3_at X0 X1 X2 X3 b n _)
  exact congrArg (fun f => Finset.fold max (Ideal.ofBits .f32 0xFF800000#32) f (Finset.univ : Finset (Fin 100))) hf

/-- The exponential of a score less its row's maximum. -/
theorem v10_at (n m : Fin 100) :
    val_main_v10 (F := Ideal) X0 X1 X2 X3 (ix3 b n m)
      = rowExp (fun k => score (batchRows X0 b) (tile X1) (tile X2) (tile X3) n k) m := by
  rw [val_main_v10_apply, val_main_v9_apply, val_main_v8_apply, val_main_v7_apply,
    show idx_main_v7 (idx_main_v8 (ix3 b n m)) = ix2 b n by coords2, v6_at, v3_at]
  rfl

/-- The sum of a row's exponentials. -/
theorem v11_at (n : Fin 100) :
    val_main_v11 (F := Ideal) X0 X1 X2 X3 (ix2 b n)
      = ∑ k : Fin 100, rowExp (fun k => score (batchRows X0 b) (tile X1) (tile X2) (tile X3) n k) k := by
  rw [val_main_v11_apply, val_main_cst_1_apply]
  show Ideal.ofBits .f32 0x00000000#32 + _ = _
  rw [Ideal.ofBits_zero_f32, zero_add]
  refine Finset.sum_congr rfl fun k _ => ?_
  rw [show idx_main_v11 (ix2 b n) k = ix3 b n k by coords3]
  exact v10_at X0 X1 X2 X3 b n k

/-- The weight region `n` gives region `m`. -/
theorem v14_at (n m : Fin 100) :
    val_main_v14 (F := Ideal) X0 X1 X2 X3 (ix3 b n m) = weight (batchRows X0 b) (tile X1) (tile X2) (tile X3) n m := by
  rw [val_main_v14_apply, val_main_v13_apply, val_main_v12_apply,
    show idx_main_v12 (idx_main_v13 (ix3 b n m)) = ix2 b n by coords2, v11_at, v10_at]
  rfl

/-! ## The mixing, the output map, the bias and the residual -/

/-- The `wg`-images mixed by the weights. -/
theorem v16_at (n : Fin 100) (d : Fin 1024) :
    val_main_v16 (F := Ideal) X0 X1 X2 X3 X4 (ix3 b n d)
      = mixed (batchRows X0 b) (tile X1) (tile X2) (tile X3) (tile X4) n d := by
  rw [val_main_v16_apply]
  unfold mixed
  refine Finset.sum_congr rfl fun m _ => ?_
  rw [show lidx_main_v16 (ix3 b n d) m = ix3 b n m by coords3, show ridx_main_v16 (ix3 b n d) m = ix3 b m d by coords3,
    v14_at, v15_at]

/-- THE REFERENCE AT AN ENTRY. -/
theorem result_at (n : Fin 100) (e : Fin 1024) :
    val_main_v21 (F := Ideal) X0 X1 X2 X3 X4 X5 X6 (ix3 b n e)
      = out (batchRows X0 b) (tile X1) (tile X2) (tile X3) (tile X4) (tile X5) (biasVec X6) n e := by
  rw [val_main_v21_apply, val_main_v20_apply, val_main_v19_apply, val_main_v18_apply, val_main_v17_apply, v0_at]
  unfold out lin
  refine congrArg (· + _) (congrArg₂ (· + ·) ?_ ?_)
  · refine Finset.sum_congr rfl fun d _ => ?_
    rw [show lidx_main_v17 (ix3 b n e) d = ix3 b n d by coords3, v16_at]
    exact congrArg (_ * ·) (congrArg X5 (by coords2))
  · exact congrArg X6 (funext fun a => match a with | ⟨0, _⟩ => rfl)

/-- THE REFERENCE'S RESULT is the whole-array function `result` of its arguments. -/
theorem result_eq : val_main_v21 (F := Ideal) X0 X1 X2 X3 X4 X5 X6 = result X0 X1 X2 X3 X4 X5 X6 := by
  funext i
  obtain ⟨b, n, e, rfl⟩ : ∃ (b : Fin 64) (n : Fin 100) (e : Fin 1024), i = ix3 b n e := ⟨i 0, i 1, i 2, eq_ix3 i⟩
  exact result_at X0 X1 X2 X3 X4 X5 X6 b n e

end Cert.ReferenceIdeal.RefValue

end
-- ==== Proof.lean ====
/-
  The kernel computes, for each of 64 batch elements, a relation network over the element's 100 regions: the regions
  are projected (`x · wpᵀ`), scored against one another through two square maps, each row of scores is turned into
  softmax weights, the weights mix the regions' images under a third square map, and the mix goes through an output
  map, plus a bias, plus the projected regions. The kernel does this one batch element per grid point, with its matrix
  products into zero accumulators and its operands narrowed to a shorter float format; the reference does it for all
  batch elements at once with batched dot products.

  At the extended reals the two are one function of the arguments, `Relation.result` (Proof/Spec.lean): a change of float
  format moves nothing, a product into a zero accumulator and the host's dot product are the same sum over the
  contracted coordinate, a lane maximum and a lane sum are the host's reductions over the last axis, and block t of
  the kernel's result is batch element t's slice of the whole. No law of arithmetic beyond that reading is used, so the
  precondition (finite inputs) is never opened.

    Proof/KernelBody.lean   the value the body stores, entry by entry, for any contents of its tiles
    Proof/KernelArray.lean  the 64 blocks tile the result array, which therefore ends at `result` of the arguments
    Proof/RefValue.lean     the reference's result is `result` of its arguments, stage by stage
    Proof/LibDotForms.lean, Proof/LibRowSoftmax.lean, Proof/LibKeepdims.lean   the products, the softmax and the
                            kept-column layout read at an entry

  The frames are the generated ones (the reference's is its generated run with the result dropped); no operation
  was rewritten for the reading at the extended reals, so `preserves` has nothing to state.
-/
import proofs.«124177_j28312424415653_1_alg».proof.Defs
import proofs.«124177_j28312424415653_1_alg».proof.Proof.Gen.Kernel
import proofs.«124177_j28312424415653_1_alg».proof.Proof.Gen.Kernel.Skeleton
import proofs.«124177_j28312424415653_1_alg».proof.Proof.Gen.Kernel.Launch
import proofs.«124177_j28312424415653_1_alg».proof.Proof.Gen.Kernel.Points
import proofs.«124177_j28312424415653_1_alg».proof.Proof.Gen.Kernel.Frame
import proofs.«124177_j28312424415653_1_alg».proof.Proof.Gen.KernelIdeal
import proofs.«124177_j28312424415653_1_alg».proof.Proof.Gen.KernelIdeal.Skeleton
import proofs.«124177_j28312424415653_1_alg».proof.Proof.Gen.KernelIdeal.Launch
import proofs.«124177_j28312424415653_1_alg».proof.Proof.Gen.KernelIdeal.Points
import proofs.«124177_j28312424415653_1_alg».proof.Proof.Gen.KernelIdeal.Frame
import proofs.«124177_j28312424415653_1_alg».proof.Proof.Gen.ReferenceIdeal
import proofs.«124177_j28312424415653_1_alg».proof.Proof.Gen.Pre_finite_inputs
import proofs.«124177_j28312424415653_1_alg».proof.Proof.Gen.KernelIdeal.Value
import proofs.«124177_j28312424415653_1_alg».proof.Proof.Gen.ReferenceIdeal.Run
import proofs.«124177_j28312424415653_1_alg».proof.Proof.Gen.ReferenceIdeal.Read
import proofs.«124177_j28312424415653_1_alg».proof.Proof.KernelArray
import proofs.«124177_j28312424415653_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the result array at `Relation.result` of
    those arguments: the kernel block by block, the reference stage by stage. -/
theorem algebraic : Cert.algebraic_KernelIdeal_ReferenceIdeal := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, h0, h1, h2, h3, h4, h5, h6]
  exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
